-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S64x16x32 : Shape := ⟨3, ![64, 16, 32]⟩
abbrev S64x16 : Shape := ⟨2, ![64, 16]⟩
abbrev S64x16x2 : Shape := ⟨3, ![64, 16, 2]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S64x16x32 : S_.BroadcastsInDim S64x16x32 (![] : Fin 0 → Fin S64x16x32.rank)
  reducesTo_S64x16x32_S_d0_1_2 : S64x16x32.ReducesTo [0, 1, 2] S_
  bcast_S_S64x16 : S_.BroadcastsInDim S64x16 (![] : Fin 0 → Fin S64x16.rank)
  reducesTo_S64x16_S_d0_1 : S64x16.ReducesTo [0, 1] S_
  bcast_S_S64x16x2 : S_.BroadcastsInDim S64x16x2 (![] : Fin 0 → Fin S64x16x2.rank)
  reducesTo_S64x16x2_S_d0_1_2 : S64x16x2.ReducesTo [0, 1, 2] S_

variable [Facts]

def fn_part1 {F : FTy → Type} [FloatOps F] (main_v13 : IVec S_ 1) (main_v16 : IVec S64x16x2 1) : IVec S_ 1 :=
  let main_c_5 : IVec S_ 1 := constantI S_ 1 1#1
  let main_v17 : IVec S_ 1 := (fun x v => Host.reduce IntOp.andi x v reducesTo_S64x16x2_S_d0_1_2 h_S_) main_v16 main_c_5
  let main_v18 : IVec S_ 1 := andi main_v13 main_v17
  main_v18

def fn {F : FTy → Type} [FloatOps F] (main_arg0 : FVec F S200000x32 .f32) (main_arg1 : FVec F S64x16x32 .f32) (main_arg2 : FVec F S64x16 .f32) (main_arg3 : FVec F S64x16x2 .f32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S64x16x32 .f32 := Host.absf main_arg1
  let main_cst_0 : FVec F S_ .f32 := constant S_ .f32 0x7F800000#32
  let main_v5 : FVec F S64x16x32 .f32 := broadcastInDim S64x16x32 ![] bcast_S_S64x16x32 main_cst_0
  let main_v6 : IVec S64x16x32 1 := cmpf .olt main_v4 main_v5
  let main_c_1 : IVec S_ 1 := constantI S_ 1 1#1
  let main_v7 : IVec S_ 1 := (fun x v => Host.reduce IntOp.andi x v reducesTo_S64x16x32_S_d0_1_2 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64x16x2 .f32 := Host.absf main_arg3
  let main_cst_4 : FVec F S_ .f32 := constant S_ .f32 0x7F800000#32
  let main_v15 : FVec F S64x16x2 .f32 := broadcastInDim S64x16x2 ![] bcast_S_S64x16x2 main_cst_4
  let main_v16 : IVec S64x16x2 1 := cmpf .olt main_v14 main_v15
  fn_part1 (F := F) main_v13 main_v16
-- ==== Kernel.lean ====
abbrev S200000x32 : Shape := ⟨2, ![200000, 32]⟩
abbrev S64x16x32 : Shape := ⟨3, ![64, 16, 32]⟩
abbrev S64x16 : Shape := ⟨2, ![64, 16]⟩
abbrev S64x16x2 : Shape := ⟨3, ![64, 16, 2]⟩
abbrev S_ : Shape := ⟨0, ![]⟩
abbrev S64x16x1 : Shape := ⟨3, ![64, 16, 1]⟩
abbrev S1024x32 : Shape := ⟨2, ![1024, 32]⟩
abbrev S32x1024 : Shape := ⟨2, ![32, 1024]⟩
abbrev S1x1024 : Shape := ⟨2, ![1, 1024]⟩
abbrev S200000x1024 : Shape := ⟨2, ![200000, 1024]⟩
abbrev S2000x32 : Shape := ⟨2, ![2000, 32]⟩
abbrev S2000x1024 : Shape := ⟨2, ![2000, 1024]⟩
abbrev S200000x64x16 : Shape := ⟨3, ![200000, 64, 16]⟩

abbrev nBuf : Space → Nat
  | .hbm => 32
  | .vmem => 8
  | .smem => 0
  | _ => 0

abbrev bufTy : (tb : Table) → Fin (tcTables nBuf tb) → BufTy
  | .hbm, ⟨0, _⟩ => ⟨S200000x32, .f32⟩
  | .hbm, ⟨1, _⟩ => ⟨S64x16x32, .f32⟩
  | .hbm, ⟨2, _⟩ => ⟨S64x16, .f32⟩
  | .hbm, ⟨3, _⟩ => ⟨S64x16x2, .f32⟩
  | .hbm, ⟨4, _⟩ => ⟨S_, .f32⟩
  | .hbm, ⟨5, _⟩ => ⟨S64x16x32, .f32⟩
  | .hbm, ⟨6, _⟩ => ⟨S64x16x32, .f32⟩
  | .hbm, ⟨7, _⟩ => ⟨S_, .f32⟩
  | .hbm, ⟨8, _⟩ => ⟨S64x16, .f32⟩
  | .hbm, ⟨9, _⟩ => ⟨S_, .f32⟩
  | .hbm, ⟨10, _⟩ => ⟨S64x16, .f32⟩
  | .hbm, ⟨11, _⟩ => ⟨S64x16, .f32⟩
  | .hbm, ⟨12, _⟩ => ⟨S64x16x1, .f32⟩
  | .hbm, ⟨13, _⟩ => ⟨S64x16x32, .f32⟩
  | .hbm, ⟨14, _⟩ => ⟨S64x16x32, .f32⟩
  | .hbm, ⟨15, _⟩ => ⟨S64x16x32, .f32⟩
  | .hbm, ⟨16, _⟩ => ⟨S_, .f32⟩
  | .hbm, ⟨17, _⟩ => ⟨S64x16, .f32⟩
  | .hbm, ⟨18, _⟩ => ⟨S64x16x1, .f32⟩
  | .hbm, ⟨19, _⟩ => ⟨S64x16x32, .f32⟩
  | .hbm, ⟨20, _⟩ => ⟨S64x16x32, .f32⟩
  | .hbm, ⟨21, _⟩ => ⟨S1024x32, .f32⟩
  | .hbm, ⟨22, _⟩ => ⟨S32x1024, .f32⟩
  | .hbm, ⟨23, _⟩ => ⟨S1x1024, .f32⟩
  | .hbm, ⟨24, _⟩ => ⟨S64x16x1, .f32⟩
  | .hbm, ⟨25, _⟩ => ⟨S64x16, .f32⟩
  | .hbm, ⟨26, _⟩ => ⟨S1x1024, .f32⟩
  | .hbm, ⟨27, _⟩ => ⟨S64x16x1, .f32⟩
  | .hbm, ⟨28, _⟩ => ⟨S64x16, .f32⟩
  | .hbm, ⟨29, _⟩ => ⟨S1x1024, .f32⟩
  | .hbm, ⟨30, _⟩ => ⟨S200000x1024, .f32⟩
  | .hbm, ⟨31, _⟩ => ⟨S200000x64x16, .f32⟩
  | .local _ .vmem, ⟨0, _⟩ => ⟨S2000x32, .f32⟩
  | .local _ .vmem, ⟨1, _⟩ => ⟨S2000x32, .f32⟩
  | .local _ .vmem, ⟨2, _⟩ => ⟨S32x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S2000x1024, .f32⟩
  | .local _ .vmem, ⟨7, _⟩ => ⟨S2000x1024, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64x16x32 : S_.BroadcastsInDim S64x16x32 (![] : Fin 0 → Fin S64x16x32.rank)
  reducesTo_S64x16x32_S64x16_d2 : S64x16x32.ReducesTo [2] S64x16
  h_S_ : 0 < S_.numel
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  bcast_S64x16x1_S64x16x32_0_1_2 : S64x16x1.BroadcastsInDim S64x16x32 (![0, 1, 2] : Fin 3 → Fin S64x16x32.rank)
  shapeCasts_S64x16x32_S1024x32 : S64x16x32.ShapeCasts S1024x32
  transposes_S1024x32_S32x1024_1_0 : S1024x32.Transposes [1, 0] S32x1024
  shapeCasts_S64x16_S1x1024 : S64x16.ShapeCasts S1x1024
  slices_S64x16x2_S64x16x1_0_0_0 : S64x16x2.Slices ![0, 0, 0] S64x16x1
  shapeCasts_S64x16x1_S64x16 : S64x16x1.ShapeCasts S64x16
  slices_S64x16x2_S64x16x1_0_0_1 : S64x16x2.Slices ![0, 0, 1] S64x16x1
  inb_S2000x32_S2000x32_0_0 : ∀ a, (![0, 0] : Fin 2 → Nat) a + S2000x32.size a ≤ S2000x32.size a
  h_S2000x32 : 0 < S2000x32.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  shapeCasts_S200000x1024_S200000x64x16 : S200000x1024.ShapeCasts S200000x64x16
  dot_S2000x32_S32x1024_S2000x1024_1_0_0_1_n_n_wf : DotDims.WF S2000x32 S32x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S200000x32.size a
  hwx0_0 : ∀ i : grid0.Coords, EltTy.bits .f32 = 32 ∨ (Rect.block (s := S200000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S32x1024.size a
  hwx0_1 : ∀ i : grid0.Coords, EltTy.bits .f32 = 32 ∨ (Rect.block (s := S32x1024) S32x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1024.size a ≤ S200000x1024.size a
  hwx0_5 : ∀ i : grid0.Coords, EltTy.bits .f32 = 32 ∨ (Rect.block (s := S200000x1024) S2000x1024.size (cc0_transform_5 i) (hinb0_5 i)).WholeWords (EltTy.packing .f32)

variable [Facts₀]

def dot_S2000x32_S32x1024_S2000x1024_1_0_0_1_n_n : DotDims S2000x32 S32x1024 S2000x1024 where
  lhsContracting := [1]
  rhsContracting := [0]
  lhsNonContracting := [0]
  rhsNonContracting := [1]
  lhsBatch := []
  rhsBatch := []
  wf := dot_S2000x32_S32x1024_S2000x1024_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S32x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x32 : Shape := ⟨2, ![200000, 32]⟩
abbrev S64x16x32 : Shape := ⟨3, ![64, 16, 32]⟩
abbrev S64x16 : Shape := ⟨2, ![64, 16]⟩
abbrev S64x16x2 : Shape := ⟨3, ![64, 16, 2]⟩
abbrev S_ : Shape := ⟨0, ![]⟩
abbrev S64x16x1 : Shape := ⟨3, ![64, 16, 1]⟩
abbrev S200000x64x16 : Shape := ⟨3, ![200000, 64, 16]⟩
abbrev S1x64x16 : Shape := ⟨3, ![1, 64, 16]⟩

abbrev nBuf : Space → Nat
  | .hbm => 55
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S64x16x32, .f32⟩
  | .hbm, ⟨2, _⟩ => ⟨S64x16, .f32⟩
  | .hbm, ⟨3, _⟩ => ⟨S64x16x2, .f32⟩
  | .hbm, ⟨4, _⟩ => ⟨S_, .f32⟩
  | .hbm, ⟨5, _⟩ => ⟨S64x16x32, .f32⟩
  | .hbm, ⟨6, _⟩ => ⟨S64x16x32, .f32⟩
  | .hbm, ⟨7, _⟩ => ⟨S_, .f32⟩
  | .hbm, ⟨8, _⟩ => ⟨S64x16, .f32⟩
  | .hbm, ⟨9, _⟩ => ⟨S_, .f32⟩
  | .hbm, ⟨10, _⟩ => ⟨S64x16, .f32⟩
  | .hbm, ⟨11, _⟩ => ⟨S64x16, .f32⟩
  | .hbm, ⟨12, _⟩ => ⟨S64x16x1, .f32⟩
  | .hbm, ⟨13, _⟩ => ⟨S64x16x32, .f32⟩
  | .hbm, ⟨14, _⟩ => ⟨S64x16x32, .f32⟩
  | .hbm, ⟨15, _⟩ => ⟨S64x16x32, .f32⟩
  | .hbm, ⟨16, _⟩ => ⟨S_, .f32⟩
  | .hbm, ⟨17, _⟩ => ⟨S64x16, .f32⟩
  | .hbm, ⟨18, _⟩ => ⟨S64x16x1, .f32⟩
  | .hbm, ⟨19, _⟩ => ⟨S64x16x32, .f32⟩
  | .hbm, ⟨20, _⟩ => ⟨S64x16x32, .f32⟩
  | .hbm, ⟨21, _⟩ => ⟨S200000x64x16, .f32⟩
  | .hbm, ⟨22, _⟩ => ⟨S200000x64x16, .f32⟩
  | .hbm, ⟨23, _⟩ => ⟨S_, .f32⟩
  | .hbm, ⟨24, _⟩ => ⟨S200000x64x16, .f32⟩
  | .hbm, ⟨25, _⟩ => ⟨S200000x64x16, .i1⟩
  | .hbm, ⟨26, _⟩ => ⟨S_, .f32⟩
  | .hbm, ⟨27, _⟩ => ⟨S_, .f32⟩
  | .hbm, ⟨28, _⟩ => ⟨S200000x64x16, .f32⟩
  | .hbm, ⟨29, _⟩ => ⟨S200000x64x16, .f32⟩
  | .hbm, ⟨30, _⟩ => ⟨S1x64x16, .f32⟩
  | .hbm, ⟨31, _⟩ => ⟨S200000x64x16, .f32⟩
  | .hbm, ⟨32, _⟩ => ⟨S200000x64x16, .f32⟩
  | .hbm, ⟨33, _⟩ => ⟨S64x16x1, .f32⟩
  | .hbm, ⟨34, _⟩ => ⟨S64x16, .f32⟩
  | .hbm, ⟨35, _⟩ => ⟨S1x64x16, .f32⟩
  | .hbm, ⟨36, _⟩ => ⟨S64x16x1, .f32⟩
  | .hbm, ⟨37, _⟩ => ⟨S64x16, .f32⟩
  | .hbm, ⟨38, _⟩ => ⟨S1x64x16, .f32⟩
  | .hbm, ⟨39, _⟩ => ⟨S200000x64x16, .f32⟩
  | .hbm, ⟨40, _⟩ => ⟨S200000x64x16, .f32⟩
  | .hbm, ⟨41, _⟩ => ⟨S1x64x16, .f32⟩
  | .hbm, ⟨42, _⟩ => ⟨S_, .f32⟩
  | .hbm, ⟨43, _⟩ => ⟨S1x64x16, .f32⟩
  | .hbm, ⟨44, _⟩ => ⟨S1x64x16, .f32⟩
  | .hbm, ⟨45, _⟩ => ⟨S200000x64x16, .f32⟩
  | .hbm, ⟨46, _⟩ => ⟨S200000x64x16, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S200000x64x16, .f32⟩
  | .hbm, ⟨51, _⟩ => ⟨S200000x64x16, .f32⟩
  | .hbm, ⟨52, _⟩ => ⟨S_, .f32⟩
  | .hbm, ⟨53, _⟩ => ⟨S200000x64x16, .f32⟩
  | .hbm, ⟨54, _⟩ => ⟨S200000x64x16, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_cst_7 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  bcast_S_S64x16x32 : S_.BroadcastsInDim S64x16x32 (![] : Fin 0 → Fin S64x16x32.rank)
  reducesTo_S64x16x32_S64x16_d2 : S64x16x32.ReducesTo [2] S64x16
  h_S_ : 0 < S_.numel
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  bcast_S64x16x1_S64x16x32_0_1_2 : S64x16x1.BroadcastsInDim S64x16x32 (![0, 1, 2] : Fin 3 → Fin S64x16x32.rank)
  bcast_S_S200000x64x16 : S_.BroadcastsInDim S200000x64x16 (![] : Fin 0 → Fin S200000x64x16.rank)
  bcast_S64x16_S1x64x16_1_2 : S64x16.BroadcastsInDim S1x64x16 (![1, 2] : Fin 2 → Fin S1x64x16.rank)
  bcast_S1x64x16_S200000x64x16_0_1_2 : S1x64x16.BroadcastsInDim S200000x64x16 (![0, 1, 2] : Fin 3 → Fin S200000x64x16.rank)
  slices_S64x16x2_S64x16x1_0_0_0 : S64x16x2.Slices ![0, 0, 0] S64x16x1
  shapeCasts_S64x16x1_S64x16 : S64x16x1.ShapeCasts S64x16
  slices_S64x16x2_S64x16x1_0_0_1 : S64x16x2.Slices ![0, 0, 1] S64x16x1
  bcast_S_S1x64x16 : S_.BroadcastsInDim S1x64x16 (![] : Fin 0 → Fin S1x64x16.rank)
  dot_S200000x32_S64x16x32_S200000x64x16_1_2_0_01_n_n_wf : DotDims.WF S200000x32 S64x16x32 S200000x64x16 [1] [2] [0] [0, 1] [] []

variable [Facts₀]

def dot_S200000x32_S64x16x32_S200000x64x16_1_2_0_01_n_n : DotDims S200000x32 S64x16x32 S200000x64x16 where
  lhsContracting := [1]
  rhsContracting := [2]
  lhsNonContracting := [0]
  rhsNonContracting := [0, 1]
  lhsBatch := []
  rhsBatch := []
  wf := dot_S200000x32_S64x16x32_S200000x64x16_1_2_0_01_n_n_wf

class Facts : Prop extends Facts₀ where

variable [Facts]
-- ==== Proof.Response.lean ====
/-
  The function both programs compute, stated once.

  For a sample n with feature row T[n, ·], and a unit (g, u) with weight row w[g, u, ·] (a row of the softmax of the
  weights), threshold th[g, u] and band ends hi = amb[g, u, 0], lo = amb[g, u, 1]:
  the projection p = Σ_d T[n, d] · w[g, u, d] over the 32 features is set to zero when |p| < 1e-5, the threshold and
  the band's lower end are subtracted, the difference is divided by the band's width hi − lo + 1e-29, and the quotient
  is clipped to [0, 1].  On the extended reals every step is a function of its arguments, so no finiteness is used.

  Two arrangements of the same entries: one entry per (sample, group, unit), and one entry per (sample, column) with
  the 1024 columns the units in row-major order, the weights given column by column.
-/
import Idealize.ShloMosaic.PureOps.Ideal
import Idealize.ShloMosaic.Lib.ValueIdx

noncomputable section

open scoped BigOperators

namespace Cert.Response

open Idealize.ShloMosaic Idealize.ShloMosaic.ValueIdx

/-- One entry, from the projection `p`, the threshold `t` and the band's ends `hi`, `lo`:
    clip (((p, or 0 when |p| < 1e-5) − t − lo) / (hi − lo + 1e-29)) to [0, 1]. -/
def entry (p t hi lo : Ideal .f32) : Ideal .f32 :=
  FloatOps.minimumf (F := Ideal) (φ := .f32) (FloatOps.ofBits (F := Ideal) .f32 0x3F800000#32)
    (FloatOps.maximumf (F := Ideal) (φ := .f32) (FloatOps.ofBits (F := Ideal) .f32 0x00000000#32)
      (FloatOps.divf (F := Ideal) (φ := .f32)
        (FloatOps.subf (F := Ideal) (φ := .f32)
          (FloatOps.subf (F := Ideal) (φ := .f32)
            (Scalar.select (FloatOps.cmpf (F := Ideal) (φ := .f32) .olt (FloatOps.absf (F := Ideal) (φ := .f32) p)
                (FloatOps.ofBits (F := Ideal) .f32 0x3727C5AC#32))
              (FloatOps.ofBits (F := Ideal) .f32 0x00000000#32) p)
            t)
          lo)
        (FloatOps.addf (F := Ideal) (φ := .f32) (FloatOps.subf (F := Ideal) (φ := .f32) hi lo)
          (FloatOps.ofBits (F := Ideal) .f32 0x0F4AD2F8#32))))

/-- The entry of sample `n` at unit `(g, u)`. -/
def atUnit (T : (⟨2, ![200000, 32]⟩ : Shape).Idx → Ideal .f32) (w : (⟨3, ![64, 16, 32]⟩ : Shape).Idx → Ideal .f32)
    (th : (⟨2, ![64, 16]⟩ : Shape).Idx → Ideal .f32) (amb : (⟨3, ![64, 16, 2]⟩ : Shape).Idx → Ideal .f32)
    (n : Fin 200000) (g : Fin 64) (u : Fin 16) : Ideal .f32 :=
  entry (∑ d : Fin 32, T (ix2 n d) * w (ix3 g u d)) (th (ix2 g u)) (amb (ix3 g u (0 : Fin 2))) (amb (ix3 g u (1 : Fin 2)))

/-- One entry per (sample, group, unit). -/
def byUnit (T : (⟨2, ![200000, 32]⟩ : Shape).Idx → Ideal .f32) (w : (⟨3, ![64, 16, 32]⟩ : Shape).Idx → Ideal .f32)
    (th : (⟨2, ![64, 16]⟩ : Shape).Idx → Ideal .f32) (amb : (⟨3, ![64, 16, 2]⟩ : Shape).Idx → Ideal .f32) :
    (⟨3, ![200000, 64, 16]⟩ : Shape).Idx → Ideal .f32 :=
  fun i => atUnit T w th amb (i 0) (i 1) (i 2)

/-- The entry of sample `n` at column `q`, the weights, thresholds and band ends given per column. -/
def atColumn (T : (⟨2, ![200000, 32]⟩ : Shape).Idx → Ideal .f32) (wc : (⟨2, ![32, 1024]⟩ : Shape).Idx → Ideal .f32)
    (thc hic loc : (⟨2, ![1, 1024]⟩ : Shape).Idx → Ideal .f32) (n : Fin 200000) (q : Fin 1024) : Ideal .f32 :=
  entry (∑ d : Fin 32, T (ix2 n d) * wc (ix2 d q)) (thc (ix2 (0 : Fin 1) q)) (hic (ix2 (0 : Fin 1) q)) (loc (ix2 (0 : Fin 1) q))

/-- One entry per (sample, column). -/
def byColumn (T : (⟨2, ![200000, 32]⟩ : Shape).Idx → Ideal .f32) (wc : (⟨2, ![32, 1024]⟩ : Shape).Idx → Ideal .f32)
    (thc hic loc : (⟨2, ![1, 1024]⟩ : Shape).Idx → Ideal .f32) : (⟨2, ![200000, 1024]⟩ : Shape).Idx → Ideal .f32 :=
  fun i => atColumn T wc thc hic loc (i 0) (i 1)

end Cert.Response

end
-- ==== Proof.RefValue.lean ====
/-
  The reference's result, entry by entry.

  Read one operation at a time, the reference's result at (n, g, u) is the clipped quotient of Response.lean's `entry`
  taken of the projection of sample n's features onto the weight row (g, u) of the softmax, the threshold th[g, u] and
  the band ends amb[g, u, 0], amb[g, u, 1]: the contraction is the sum over the 32 features, the broadcasts along the
  sample axis read the per-unit values, and the two slices of the band array read its last coordinate at 0 and at 1.
-/
import proofs.«118163_j44779329028744_1_alg».proof.Proof.Gen.ReferenceIdeal.Read
import proofs.«118163_j44779329028744_1_alg».proof.Proof.Response

noncomputable section

open scoped BigOperators

namespace Cert.ReferenceIdeal.RefValue

open Cert.ReferenceIdeal Cert.ReferenceIdeal.Read Idealize.ShloMosaic Idealize.ShloMosaic.ValueIdx

/-! ### The operations' index maps, composed, at an index given by its coordinates -/

theorem sample_feature (n : Fin 200000) (g : Fin 64) (u : Fin 16) (k : Fin 32) :
    lidx_main_v13 (ix3 n g u) k = ix2 n k :=
  funext fun a => Fin.ext (by match a with | ⟨0, _⟩ => rfl | ⟨1, _⟩ => rfl)

theorem unit_feature (n : Fin 200000) (g : Fin 64) (u : Fin 16) (k : Fin 32) :
    ridx_main_v13 (ix3 n g u) k = ix3 g u k :=
  funext fun a => Fin.ext (by match a with | ⟨0, _⟩ => rfl | ⟨1, _⟩ => rfl | ⟨2, _⟩ => rfl)

theorem threshold_at (n : Fin 200000) (g : Fin 64) (u : Fin 16) :
    idx_main_v18 (idx_main_v19 (ix3 n g u)) = ix2 g u :=
  funext fun a => Fin.ext (by match a with | ⟨0, _⟩ => rfl | ⟨1, _⟩ => rfl)

theorem lower_end_at (n : Fin 200000) (g : Fin 64) (u : Fin 16) :
    idx_main_v24 (idx_main_v25 (idx_main_v26 (idx_main_v27 (ix3 n g u)))) = ix3 g u (1 : Fin 2) :=
  funext fun a => Fin.ext (by
    have hg : g.val < 64 := g.isLt
    have hu : u.val < 16 := u.isLt
    match a with
    | ⟨0, _⟩ => show (g.val * 16 + u.val) / 16 = g.val; omega
    | ⟨1, _⟩ => show (g.val * 16 + u.val) / 1 % 16 = u.val; omega
    | ⟨2, _⟩ => rfl)

theorem lower_end_at' (n : Fin 200000) (g : Fin 64) (u : Fin 16) :
    idx_main_v24 (idx_main_v25 (idx_main_v26 (idx_main_v32 (ix3 n g u)))) = ix3 g u (1 : Fin 2) :=
  funext fun a => Fin.ext (by
    have hg : g.val < 64 := g.isLt
    have hu : u.val < 16 := u.isLt
    match a with
    | ⟨0, _⟩ => show (g.val * 16 + u.val) / 16 = g.val; omega
    | ⟨1, _⟩ => show (g.val * 16 + u.val) / 1 % 16 = u.val; omega
    | ⟨2, _⟩ => rfl)

theorem upper_end_at (n : Fin 200000) (g : Fin 64) (u : Fin 16) :
    idx_main_v21 (idx_main_v22 (idx_main_v23 (idx_main_v32 (ix3 n g u)))) = ix3 g u (0 : Fin 2) :=
  funext fun a => Fin.ext (by
    have hg : g.val < 64 := g.isLt
    have hu : u.val < 16 := u.isLt
    match a with
    | ⟨0, _⟩ => show (g.val * 16 + u.val) / 16 = g.val; omega
    | ⟨1, _⟩ => show (g.val * 16 + u.val) / 1 % 16 = u.val; omega
    | ⟨2, _⟩ => rfl)

/-- The reference's last stage is the per-unit arrangement of the entries, the weights being the softmax stage. -/
theorem result_eq (x0 : (⟨S200000x32, .f32⟩ : BufTy).Contents (Elt Ideal)) (x1 : (⟨S64x16x32, .f32⟩ : BufTy).Contents (Elt Ideal))
    (x2 : (⟨S64x16, .f32⟩ : BufTy).Contents (Elt Ideal)) (x3 : (⟨S64x16x2, .f32⟩ : BufTy).Contents (Elt Ideal)) :
    val_main_v34 (F := Ideal) x0 x1 x2 x3 = Cert.Response.byUnit x0 (val_main_v12 (F := Ideal) x1) x2 x3 := by
  funext i
  obtain ⟨n, g, u, rfl⟩ : ∃ (n : Fin 200000) (g : Fin 64) (u : Fin 16), i = ix3 n g u := ⟨i 0, i 1, i 2, eq_ix3 i⟩
  simp only [val_main_v34_apply, val_main_call1_v4_apply, val_main_call1_v3_apply, val_main_cst_7_apply,
    val_main_call1_v2_apply, val_main_call1_v1_apply, val_main_call1_v0_apply, val_main_cst_6_apply,
    val_main_v33_apply, val_main_v28_apply, val_main_v20_apply, val_main_v17_apply, val_main_v16_apply,
    val_main_v14_apply, val_main_v13_apply, val_main_v15_apply, val_main_cst_3_apply, val_main_call0_v1_apply,
    val_main_call0_v0_apply, val_main_cst_4_apply, val_main_v19_apply, val_main_v18_apply, val_main_v27_apply,
    val_main_v26_apply, val_main_v25_apply, val_main_v24_apply, val_main_v32_apply, val_main_v31_apply,
    val_main_v29_apply, val_main_v23_apply, val_main_v22_apply, val_main_v21_apply, val_main_v30_apply,
    val_main_cst_5_apply,
    sample_feature, unit_feature, threshold_at, lower_end_at, lower_end_at', upper_end_at]
  rfl

end Cert.ReferenceIdeal.RefValue

end
-- ==== Proof.HostSide.lean ====
/-
  The host operations around the kernel's region.

  Before the region: the weight matrix the region finds is the softmax of the weights (the reference's own softmax
  stage, operation for operation), its 64 x 16 rows listed as 1024 rows and transposed; the threshold row is the
  threshold table reshaped to one row; each band-end row is a slice of the band array at last coordinate 0 or 1,
  its unit axis dropped, reshaped to one row.  After the region: the result is the output array with its 1024 columns
  split into 64 x 16.
-/
import proofs.«118163_j44779329028744_1_alg».proof.Proof.Gen.KernelIdeal.Frame
import proofs.«118163_j44779329028744_1_alg».proof.Proof.Gen.ReferenceIdeal.Read
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

theorem found_weights (c : Dev nD) :
    (V m c main_v14 : S32x1024.Idx → Elt F .f32)
      = transpose S32x1024 [1, 0]
          (shapeCast S1024x32 (Cert.ReferenceIdeal.Read.val_main_v12 (F := F) (m ((c : Thread nD τ).loc main_arg1)))
            shapeCasts_S64x16x32_S1024x32) transposes_S1024x32_S32x1024_1_0 := by
  show StableHlo.after hostOps0 (fun b => m (c, b)) (Proc.devRef .tc main_v14) = _
  after_results
  rfl

theorem found_thresholds (c : Dev nD) :
    (V m c main_v15 : S1x1024.Idx → Elt F .f32)
      = shapeCast S1x1024 (m ((c : Thread nD τ).loc main_arg2)) shapeCasts_S64x16_S1x1024 := by
  show StableHlo.after hostOps0 (fun b => m (c, b)) (Proc.devRef .tc main_v15) = _
  after_results
  rfl

theorem found_upper (c : Dev nD) :
    (V m c main_v18 : S1x1024.Idx → Elt F .f32)
      = shapeCast S1x1024 (shapeCast S64x16 (extractStridedSlice S64x16x1 ![0, 0, 0] (m ((c : Thread nD τ).loc main_arg3))
          slices_S64x16x2_S64x16x1_0_0_0) shapeCasts_S64x16x1_S64x16) shapeCasts_S64x16_S1x1024 := by
  show StableHlo.after hostOps0 (fun b => m (c, b)) (Proc.devRef .tc main_v18) = _
  after_results
  rfl

theorem found_lower (c : Dev nD) :
    (V m c main_v21 : S1x1024.Idx → Elt F .f32)
      = shapeCast S1x1024 (shapeCast S64x16 (extractStridedSlice S64x16x1 ![0, 0, 1] (m ((c : Thread nD τ).loc main_arg3))
          slices_S64x16x2_S64x16x1_0_0_1) shapeCasts_S64x16x1_S64x16) shapeCasts_S64x16_S1x1024 := by
  show StableHlo.after hostOps0 (fun b => m (c, b)) (Proc.devRef .tc main_v21) = _
  after_results
  rfl

theorem tail_result (c : Dev nD) :
    (Pipeline.afterTail₀ cfgs (dats m) 0 (V0 m) [hostOps1] c main_v23 : S200000x64x16.Idx → Elt F .f32)
      = shapeCast S200000x64x16 ((dats m 0 c).arrAt 5 cfg0.N) shapeCasts_S200000x1024_S200000x64x16 := by
  unfold Pipeline.afterTail₀
  show StableHlo.after hostOps1 _ (Proc.devRef .tc main_v23) = _
  after_results
  have h := Pipeline.withArrays_arr spec0 launch0.win.arr_inj c (V0 m c) (fun w => (dats m 0 c).arrAt w cfg0.N) 5
  funext i
  exact congrArg (fun A => shapeCast S200000x64x16 A shapeCasts_S200000x1024_S200000x64x16 i) h

end Cert.KernelIdeal.HostSide

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.BlockValue.lean ====
/-
  What the kernel's body stores, entry by entry.

  On a block of 2000 samples the body multiplies the block of feature rows by the 32 x 1024 weight matrix, and applies
  the snap, the two subtractions, the division by the band width and the clip column by column, the thresholds and band
  ends being single rows broadcast over the samples.  So the stored value at (p, q) is Response.lean's `entry` of the
  projection Σ_d x0[p, d] · x1[d, q] and of the three rows read at column q.
-/
import proofs.«118163_j44779329028744_1_alg».proof.Proof.Gen.KernelIdeal.Skeleton
import proofs.«118163_j44779329028744_1_alg».proof.Proof.Response
import proofs.«118163_j44779329028744_1_alg».proof.Proof.LibDotRead
import Idealize.ShloMosaic.Lib.Pipeline.Value
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The product into the zero accumulator, at (p, q): the sum over the 32 features. -/
theorem product_apply (x0 : FVec Ideal S2000x32 .f32) (x1 : FVec Ideal S32x1024 .f32) (p : Fin 2000) (q : Fin 1024) :
    matmul (F := Ideal) dot_S2000x32_S32x1024_S2000x1024_1_0_0_1_n_n none x0 x1 (constant (F := Ideal) S2000x1024 .f32 0x00000000#32) (ix2 p q)
      = ∑ d : Fin 32, x0 (ix2 p d) * x1 (ix2 d q) :=
  (Ideal.matmul_constant_zero_apply dot_S2000x32_S32x1024_S2000x1024_1_0_0_1_n_n none x0 x1 (ix2 p q)).trans
    (Cert.DotRead.sum_contr_plain dot_S2000x32_S32x1024_S2000x1024_1_0_0_1_n_n_wf x0 x1 p q)

/-- The stored value at (p, q). -/
theorem payload_apply (x0 : Vec Ideal S2000x32 .f32) (x1 : Vec Ideal S32x1024 .f32) (x2 x3 x4 : Vec Ideal S1x1024 .f32)
    (p : Fin 2000) (q : Fin 1024) :
    k0_pay1 (F := Ideal) x0 x1 x2 x3 x4 (ix2 p q)
      = Cert.Response.entry (∑ d : Fin 32, x0 (ix2 p d) * x1 (ix2 d q)) (x2 (ix2 (0 : Fin 1) q)) (x3 (ix2 (0 : Fin 1) q))
          (x4 (ix2 (0 : Fin 1) q)) := by
  unfold k0_pay1
  simp only [shapeCast_self]
  simp only [minimumf, maximumf, divf, subf, addf, Idealize.ShloMosaic.select, cmpf, absf, broadcast]
  rw [product_apply x0 x1 p q, broadcastTo_1b_ab_apply x2 broadcasts_S1x1024_S2000x1024 p q,
    broadcastTo_1b_ab_apply x4 broadcasts_S1x1024_S2000x1024 p q,
    broadcastTo_1b_ab_apply _ broadcasts_S1x1024_S2000x1024 p q]
  rfl

/-- When the five blocks are read from arrays `A0 … A4` — the sample block's row p being row n of `A0`, the other four
    blocks the whole arrays — the stored value at (p, q) is the per-column entry of sample n at column q. -/
theorem block_entry (x0 : Vec Ideal S2000x32 .f32) (x1 : Vec Ideal S32x1024 .f32) (x2 x3 x4 : Vec Ideal S1x1024 .f32)
    (A0 : (⟨2, ![200000, 32]⟩ : Shape).Idx → Ideal .f32) (A1 : (⟨2, ![32, 1024]⟩ : Shape).Idx → Ideal .f32)
    (A2 A3 A4 : (⟨2, ![1, 1024]⟩ : Shape).Idx → Ideal .f32) (p : Fin 2000) (q : Fin 1024) (n : Fin 200000) (q' : Fin 1024)
    (h0 : ∀ d : Fin 32, x0 (ix2 p d) = A0 (ix2 n d)) (h1 : ∀ d : Fin 32, x1 (ix2 d q) = A1 (ix2 d q'))
    (h2 : x2 (ix2 (0 : Fin 1) q) = A2 (ix2 (0 : Fin 1) q')) (h3 : x3 (ix2 (0 : Fin 1) q) = A3 (ix2 (0 : Fin 1) q'))
    (h4 : x4 (ix2 (0 : Fin 1) q) = A4 (ix2 (0 : Fin 1) q')) :
    k0_pay1 (F := Ideal) x0 x1 x2 x3 x4 (ix2 p q) = Cert.Response.atColumn A0 A1 A2 A3 A4 n q' := by
  rw [payload_apply, h2, h3, h4]
  unfold Cert.Response.atColumn
  simp only [h0, h1]

end Cert.KernelIdeal.BlockValue

end
-- ==== Proof.ArrayValue.lean ====
/-
  The output array after the kernel's run, as one function of the arrays the region finds.

  Point t of the 100-point grid reads rows 2000·t … 2000·t + 1999 of the sample array and the whole of the other four
  operands, and writes rows 2000·t … 2000·t + 1999 of the 200000 x 1024 output.  What it writes is therefore the block
  at t of the per-column arrangement (Response.lean) of the five arrays, and since the 100 blocks cover every row, the
  output array ends holding that arrangement.
-/
import proofs.«118163_j44779329028744_1_alg».proof.Proof.Gen.KernelIdeal.Frame
import proofs.«118163_j44779329028744_1_alg».proof.Proof.BlockValue
import Idealize.ShloMosaic.Lib.Pipeline.Value

set_option maxRecDepth 16384

noncomputable section

open scoped BigOperators

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem offsets_zero : (![0, 0] : Fin 2 → Nat) = fun _ => 0 := funext fun a => by fin_cases a <;> rfl

/-- The block indices over the grid: the sample window moves with the output window along the rows; every other
    coordinate of every window stays at block 0; the output's row block is at most 99. -/
theorem block_indices : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 99 ∧ win0_5.index t (1 : Fin 2) = 0 :=
  (by decide +kernel : ∀ t : Fin grid0.N, _)

/-- Every row block of the output is some point's. -/
theorem block_onto : ∀ b : Fin 100, ∃ t : Fin cfg0.N, win0_5.index t = ![b.val, 0] :=
  (by decide +kernel : ∀ b : Fin 100, ∃ t : Fin grid0.N, win0_5.index t = ![b.val, 0])

/-! ### The five blocks at a point, read off the arrays -/

theorem read_samples (c : Dev nD) (t : Fin cfg0.N) (p : Fin 2000) (d : Fin 32) (n : Fin 200000)
    (hn : n.val = win0_5.index t (0 : Fin 2) * 2000 + p.val) :
    iblk m c 0 t (ix2 p d) = V m c main_arg0 (ix2 n d) := by
  obtain ⟨e0, e1, -⟩ := block_indices t
  show V m c main_arg0 (((cfg0.win 0).blk t).view.emb (ix2 p d)) = V m c main_arg0 (ix2 n d)
  refine congrArg (V m c main_arg0) (funext fun a => Fin.ext ?_)
  match a with
  | ⟨0, _⟩ => show win0_0.index t (0 : Fin 2) * 2000 + 1 * p.val = n.val; omega
  | ⟨1, _⟩ => show win0_0.index t (1 : Fin 2) * 32 + 1 * d.val = d.val; omega

theorem read_weights (c : Dev nD) (t : Fin cfg0.N) (d : Fin 32) (q q' : Fin 1024) (hq : q'.val = q.val) :
    iblk m c 1 t (ix2 d q) = V m c main_v14 (ix2 d q') := by
  obtain ⟨-, -, e2, e3, -⟩ := block_indices t
  show V m c main_v14 (((cfg0.win 1).blk t).view.emb (ix2 d q)) = V m c main_v14 (ix2 d q')
  refine congrArg (V m c main_v14) (funext fun a => Fin.ext ?_)
  match a with
  | ⟨0, _⟩ => show win0_1.index t (0 : Fin 2) * 32 + 1 * d.val = d.val; omega
  | ⟨1, _⟩ => show win0_1.index t (1 : Fin 2) * 1024 + 1 * q.val = q'.val; omega

theorem read_thresholds (c : Dev nD) (t : Fin cfg0.N) (q q' : Fin 1024) (hq : q'.val = q.val) :
    iblk m c 2 t (ix2 (0 : Fin 1) q) = V m c main_v15 (ix2 (0 : Fin 1) q') := by
  obtain ⟨-, -, -, -, e4, e5, -⟩ := block_indices t
  show V m c main_v15 (((cfg0.win 2).blk t).view.emb (ix2 (0 : Fin 1) q)) = V m c main_v15 (ix2 (0 : Fin 1) q')
  refine congrArg (V m c main_v15) (funext fun a => Fin.ext ?_)
  match a with
  | ⟨0, _⟩ => show win0_2.index t (0 : Fin 2) * 1 + 1 * 0 = 0; omega
  | ⟨1, _⟩ => show win0_2.index t (1 : Fin 2) * 1024 + 1 * q.val = q'.val; omega

theorem read_upper (c : Dev nD) (t : Fin cfg0.N) (q q' : Fin 1024) (hq : q'.val = q.val) :
    iblk m c 3 t (ix2 (0 : Fin 1) q) = V m c main_v18 (ix2 (0 : Fin 1) q') := by
  obtain ⟨-, -, -, -, -, -, e6, e7, -⟩ := block_indices t
  show V m c main_v18 (((cfg0.win 3).blk t).view.emb (ix2 (0 : Fin 1) q)) = V m c main_v18 (ix2 (0 : Fin 1) q')
  refine congrArg (V m c main_v18) (funext fun a => Fin.ext ?_)
  match a with
  | ⟨0, _⟩ => show win0_3.index t (0 : Fin 2) * 1 + 1 * 0 = 0; omega
  | ⟨1, _⟩ => show win0_3.index t (1 : Fin 2) * 1024 + 1 * q.val = q'.val; omega

theorem read_lower (c : Dev nD) (t : Fin cfg0.N) (q q' : Fin 1024) (hq : q'.val = q.val) :
    iblk m c 4 t (ix2 (0 : Fin 1) q) = V m c main_v21 (ix2 (0 : Fin 1) q') := by
  obtain ⟨-, -, -, -, -, -, -, -, e8, e9, -⟩ := block_indices t
  show V m c main_v21 (((cfg0.win 4).blk t).view.emb (ix2 (0 : Fin 1) q)) = V m c main_v21 (ix2 (0 : Fin 1) q')
  refine congrArg (V m c main_v21) (funext fun a => Fin.ext ?_)
  match a with
  | ⟨0, _⟩ => show win0_4.index t (0 : Fin 2) * 1 + 1 * 0 = 0; omega
  | ⟨1, _⟩ => show win0_4.index t (1 : Fin 2) * 1024 + 1 * q.val = q'.val; omega

/-- The per-column arrangement of the five arrays as the region finds them. -/
abbrev found (c : Dev nD) : (⟨2, ![200000, 1024]⟩ : Shape).Idx → Ideal .f32 :=
  Cert.Response.byColumn (V m c main_arg0) (V m c main_v14) (V m c main_v15) (V m c main_v18) (V m c main_v21)

/-- What point t writes back is block t of that arrangement. -/
theorem flushed_eq (c : Dev nD) (t : Fin cfg0.N) :
    (dats m 0 c).flushed 5 t = ((cfg0.win 5).blk t).view.read (Elt Ideal) (found m c) := by
  show (cfg0.win 5).cut (grid0.coords t) ((dats m 0 c).after 5 t) = _
  rw [after0_5]
  unfold out0_5
  rw [View.canon_unit_zero offsets_zero]
  simp only [View.ld_unit_zero (S := S2000x32) offsets_zero, View.ld_unit_zero (S := S32x1024) offsets_zero,
    View.ld_unit_zero (S := S1x1024) offsets_zero]
  obtain ⟨-, -, -, -, -, -, -, -, -, -, -, e11⟩ := block_indices t
  funext j
  obtain ⟨p, q, rfl⟩ : ∃ (p : Fin 2000) (q : Fin 1024), j = ix2 p q := ⟨j 0, j 1, eq_ix2 j⟩
  show k0_pay1 (F := Ideal) (iblk m c 0 t) (iblk m c 1 t) (iblk m c 2 t) (iblk m c 3 t) (iblk m c 4 t) (ix2 p q)
    = Cert.Response.atColumn (V m c main_arg0) (V m c main_v14) (V m c main_v15) (V m c main_v18) (V m c main_v21)
        ((((cfg0.win 5).blk t).view.emb (ix2 p q)) (0 : Fin 2)) ((((cfg0.win 5).blk t).view.emb (ix2 p q)) (1 : Fin 2))
  have hn : ((((cfg0.win 5).blk t).view.emb (ix2 p q)) (0 : Fin 2)).val = win0_5.index t (0 : Fin 2) * 2000 + p.val := by
    show win0_5.index t (0 : Fin 2) * 2000 + 1 * p.val = _; omega
  have hq : ((((cfg0.win 5).blk t).view.emb (ix2 p q)) (1 : Fin 2)).val = q.val := by
    show win0_5.index t (1 : Fin 2) * 1024 + 1 * q.val = _; omega
  exact BlockValue.block_entry (iblk m c 0 t) (iblk m c 1 t) (iblk m c 2 t) (iblk m c 3 t) (iblk m c 4 t)
    (V m c main_arg0) (V m c main_v14) (V m c main_v15) (V m c main_v18) (V m c main_v21) p q
    ((((cfg0.win 5).blk t).view.emb (ix2 p q)) (0 : Fin 2)) ((((cfg0.win 5).blk t).view.emb (ix2 p q)) (1 : Fin 2))
    (fun d => read_samples m c t p d _ hn) (fun d => read_weights m c t d q _ hq)
    (read_thresholds m c t q _ hq) (read_upper m c t q _ hq) (read_lower m c t q _ hq)

/-- An index of the output array is in point t's block iff each coordinate is in the block's range on its axis. -/
theorem mem_block (t : Fin cfg0.N) (i : S200000x1024.Idx) :
    i ∈ ((cfg0.win 5).blk t).view.set ↔ ∀ a : Fin 2, win0_5.index t a * S2000x1024.size a ≤ (i a).val ∧ (i a).val < win0_5.index t a * S2000x1024.size a + S2000x1024.size a := by
  show i ∈ ((View.whole main_v22).slice (win0_5.rect t)).set ↔ _
  rw [View.set_slice_whole, Rect.mem_set_unit]
  exact Iff.rfl

/-- Every index of the output array is in some point's block: row r is in block r / 2000. -/
theorem covered (i : S200000x1024.Idx) :
    ∃ t : Fin cfg0.N, (cfg0.win 5).flush t = true ∧ i ∈ ((cfg0.win 5).blk t).view.set := by
  have hi0 : (i 0).val < 200000 := (i 0).isLt
  have hi1 : (i 1).val < 1024 := (i 1).isLt
  obtain ⟨t, ht⟩ := block_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 1024 ≤ (i 1).val ∧ (i 1).val < win0_5.index t (1 : Fin 2) * 1024 + 1024; omega

/-- The output array after the run. -/
theorem final (c : Dev nD) : (dats m 0 c).arrAt 5 cfg0.N = found m c :=
  (dats m 0 c).arrAt_eq_of_cover 5 (found m c) (fun t _ => flushed_eq m c t) covered

end Cert.KernelIdeal.ArrayValue

end
-- ==== Proof.Relayout.lean ====
/-
  The two arrangements of Response.lean are one: the unit (g, u) is column 16·g + u.

  The per-column data are re-laid per-unit data: the weight matrix is the (64·16) x 32 matrix of weight rows,
  transposed; the threshold row is the 64 x 16 table read in row-major order; each band-end row is the slice of the
  band array at last coordinate 0 or 1, its unit axis dropped, read in row-major order.  Splitting the 1024 columns
  of the per-column arrangement back into 64 x 16 gives the per-unit arrangement.
-/
import proofs.«118163_j44779329028744_1_alg».proof.Proof.Response
import Idealize.ShloMosaic.Lib.Pipeline.Value
import Idealize.ShloMosaic.Lib.ValueLayout

noncomputable section

open scoped BigOperators

namespace Cert.Response

open Idealize.ShloMosaic Idealize.ShloMosaic.ValueIdx

/-- The column of unit (g, u). -/
def col (g : Fin 64) (u : Fin 16) : Fin 1024 := ⟨g.val * 16 + u.val, by have := g.isLt; have := u.isLt; omega⟩

theorem col_val (g : Fin 64) (u : Fin 16) : (col g u).val = g.val * 16 + u.val := rfl

/-- The transposed matrix of weight rows, at (feature d, column of (g, u)), is the weight w[g, u, d]. -/
theorem weights_relaid (w : (⟨3, ![64, 16, 32]⟩ : Shape).Idx → Ideal .f32)
    (h1 : (⟨3, ![64, 16, 32]⟩ : Shape).ShapeCasts ⟨2, ![1024, 32]⟩)
    (h2 : (⟨2, ![1024, 32]⟩ : Shape).Transposes [1, 0] ⟨2, ![32, 1024]⟩) (g : Fin 64) (u : Fin 16) (d : Fin 32) :
    transpose ⟨2, ![32, 1024]⟩ [1, 0] (shapeCast ⟨2, ![1024, 32]⟩ w h1) h2 (ix2 d (col g u)) = w (ix3 g u d) := by
  rw [transpose_ix2_apply]
  exact shapeCast_apply w h1 (ix2 (col g u) d) (ix3 g u d) (by
    rw [Shape.rowMajor_val_three, Shape.rowMajor_val_two]
    show (g.val * 16 + u.val) * 32 + d.val = (g.val * 16 + u.val) * 32 + d.val
    rfl)

/-- A 64 x 16 table read as one row of 1024, at the column of (g, u). -/
theorem row_relaid (x : (⟨2, ![64, 16]⟩ : Shape).Idx → Ideal .f32)
    (h3 : (⟨2, ![64, 16]⟩ : Shape).ShapeCasts ⟨2, ![1, 1024]⟩) (g : Fin 64) (u : Fin 16) :
    shapeCast ⟨2, ![1, 1024]⟩ x h3 (ix2 (0 : Fin 1) (col g u)) = x (ix2 g u) :=
  shapeCast_apply x h3 (ix2 (0 : Fin 1) (col g u)) (ix2 g u) (by
    rw [Shape.rowMajor_val_two, Shape.rowMajor_val_two]
    show g.val * 16 + u.val = 0 * 1024 + (g.val * 16 + u.val)
    omega)

/-- The slice of the band array at last coordinate `e`, its unit axis dropped, as one row, at the column of (g, u). -/
theorem band_relaid (amb : (⟨3, ![64, 16, 2]⟩ : Shape).Idx → Ideal .f32) (o : Nat) (e : Fin 2) (he : e.val = o)
    (h4 : (⟨3, ![64, 16, 2]⟩ : Shape).Slices ![0, 0, o] ⟨3, ![64, 16, 1]⟩)
    (h5 : (⟨3, ![64, 16, 1]⟩ : Shape).ShapeCasts ⟨2, ![64, 16]⟩)
    (h3 : (⟨2, ![64, 16]⟩ : Shape).ShapeCasts ⟨2, ![1, 1024]⟩) (g : Fin 64) (u : Fin 16) :
    shapeCast ⟨2, ![1, 1024]⟩ (shapeCast ⟨2, ![64, 16]⟩ (extractStridedSlice ⟨3, ![64, 16, 1]⟩ ![0, 0, o] amb h4) h5) h3
        (ix2 (0 : Fin 1) (col g u)) = amb (ix3 g u e) := by
  rw [row_relaid]
  refine (shapeCast_apply _ h5 (ix2 g u) (ix3 g u (0 : Fin 1)) (by
    rw [Shape.rowMajor_val_three, Shape.rowMajor_val_two]
    show (g.val * 16 + u.val) * 1 + 0 = g.val * 16 + u.val
    omega)).trans ?_
  exact extractStridedSlice_apply ![0, 0, o] amb h4 (ix3 g u (0 : Fin 1)) (ix3 g u e) (fun a => match a with
    | ⟨0, _⟩ => by show g.val = 0 + g.val; omega
    | ⟨1, _⟩ => by show u.val = 0 + u.val; omega
    | ⟨2, _⟩ => by show e.val = o + 0; omega)

/-- The per-column arrangement of the re-laid data, its columns split back into 64 x 16, is the per-unit arrangement. -/
theorem byColumn_relaid (T : (⟨2, ![200000, 32]⟩ : Shape).Idx → Ideal .f32) (w : (⟨3, ![64, 16, 32]⟩ : Shape).Idx → Ideal .f32)
    (th : (⟨2, ![64, 16]⟩ : Shape).Idx → Ideal .f32) (amb : (⟨3, ![64, 16, 2]⟩ : Shape).Idx → Ideal .f32)
    (h1 : (⟨3, ![64, 16, 32]⟩ : Shape).ShapeCasts ⟨2, ![1024, 32]⟩)
    (h2 : (⟨2, ![1024, 32]⟩ : Shape).Transposes [1, 0] ⟨2, ![32, 1024]⟩)
    (h3 : (⟨2, ![64, 16]⟩ : Shape).ShapeCasts ⟨2, ![1, 1024]⟩)
    (h40 : (⟨3, ![64, 16, 2]⟩ : Shape).Slices ![0, 0, 0] ⟨3, ![64, 16, 1]⟩)
    (h41 : (⟨3, ![64, 16, 2]⟩ : Shape).Slices ![0, 0, 1] ⟨3, ![64, 16, 1]⟩)
    (h5 : (⟨3, ![64, 16, 1]⟩ : Shape).ShapeCasts ⟨2, ![64, 16]⟩)
    (h7 : (⟨2, ![200000, 1024]⟩ : Shape).ShapeCasts ⟨3, ![200000, 64, 16]⟩) :
    shapeCast ⟨3, ![200000, 64, 16]⟩
        (byColumn T (transpose ⟨2, ![32, 1024]⟩ [1, 0] (shapeCast ⟨2, ![1024, 32]⟩ w h1) h2) (shapeCast ⟨2, ![1, 1024]⟩ th h3)
          (shapeCast ⟨2, ![1, 1024]⟩ (shapeCast ⟨2, ![64, 16]⟩ (extractStridedSlice ⟨3, ![64, 16, 1]⟩ ![0, 0, 0] amb h40) h5) h3)
          (shapeCast ⟨2, ![1, 1024]⟩ (shapeCast ⟨2, ![64, 16]⟩ (extractStridedSlice ⟨3, ![64, 16, 1]⟩ ![0, 0, 1] amb h41) h5) h3))
        h7
      = byUnit T w th amb := by
  funext i
  obtain ⟨n, g, u, rfl⟩ : ∃ (n : Fin 200000) (g : Fin 64) (u : Fin 16), i = ix3 n g u := ⟨i 0, i 1, i 2, eq_ix3 i⟩
  refine (shapeCast_apply _ h7 (ix3 n g u) (ix2 n (col g u)) (by
    rw [Shape.rowMajor_val_two, Shape.rowMajor_val_three]
    show n.val * 1024 + (g.val * 16 + u.val) = (n.val * 64 + g.val) * 16 + u.val
    omega)).trans ?_
  show atColumn T _ _ _ _ n (col g u) = atUnit T w th amb n g u
  unfold atColumn atUnit
  rw [row_relaid th h3 g u, band_relaid amb 0 (0 : Fin 2) rfl h40 h5 h3 g u, band_relaid amb 1 (1 : Fin 2) rfl h41 h5 h3 g u]
  simp only [weights_relaid w h1 h2 g u]

end Cert.Response

end
-- ==== Proof.KernelRun.lean ====
/-
  The kernel program's run, with its result named.

  The result array is the reshape of the region's output array; that array is the per-column arrangement of the arrays
  the region finds (ArrayValue.lean); those arrays are the re-laid softmax, thresholds and band ends (HostSide.lean);
  and the per-column arrangement of re-laid data, its columns split into 64 x 16, is the per-unit arrangement
  (Relayout.lean).  So the program ends with its result at the per-unit arrangement of the launch arrays, the weights
  being their softmax, and with its four arguments unchanged.
-/
import proofs.«118163_j44779329028744_1_alg».proof.Proof.HostSide
import proofs.«118163_j44779329028744_1_alg».proof.Proof.ArrayValue
import proofs.«118163_j44779329028744_1_alg».proof.Proof.Relayout

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The result as one function of the launch arrays. -/
abbrev result (c : Dev nD) : (⟨3, ![200000, 64, 16]⟩ : Shape).Idx → Ideal .f32 :=
  Cert.Response.byUnit (m ((c : Thread nD τ).loc main_arg0))
    (Cert.ReferenceIdeal.Read.val_main_v12 (F := Ideal) (m ((c : Thread nD τ).loc main_arg1)))
    (m ((c : Thread nD τ).loc main_arg2)) (m ((c : Thread nD τ).loc main_arg3))

/-- The arrays the region finds, in terms of the launch arrays. -/
theorem found_eq (c : Dev nD) :
    ArrayValue.found m c
      = Cert.Response.byColumn (m ((c : Thread nD τ).loc main_arg0))
          (transpose S32x1024 [1, 0]
            (shapeCast S1024x32 (Cert.ReferenceIdeal.Read.val_main_v12 (F := Ideal) (m ((c : Thread nD τ).loc main_arg1)))
              shapeCasts_S64x16x32_S1024x32) transposes_S1024x32_S32x1024_1_0)
          (shapeCast S1x1024 (m ((c : Thread nD τ).loc main_arg2)) shapeCasts_S64x16_S1x1024)
          (shapeCast S1x1024 (shapeCast S64x16 (extractStridedSlice S64x16x1 ![0, 0, 0] (m ((c : Thread nD τ).loc main_arg3))
            slices_S64x16x2_S64x16x1_0_0_0) shapeCasts_S64x16x1_S64x16) shapeCasts_S64x16_S1x1024)
          (shapeCast S1x1024 (shapeCast S64x16 (extractStridedSlice S64x16x1 ![0, 0, 1] (m ((c : Thread nD τ).loc main_arg3))
            slices_S64x16x2_S64x16x1_0_0_1) shapeCasts_S64x16x1_S64x16) shapeCasts_S64x16_S1x1024) := by
  show Cert.Response.byColumn (V m c main_arg0) (V m c main_v14) (V m c main_v15) (V m c main_v18) (V m c main_v21) = _
  rw [V_main_arg0 m c, HostSide.found_weights m c, HostSide.found_thresholds m c, HostSide.found_upper m c,
    HostSide.found_lower m c]

/-- The program's result buffer after the lines that follow the region. -/
theorem result_eq (c : Dev nD) :
    Pipeline.afterTail₀ cfgs (dats m) 0 (V0 m) [hostOps1] c main_v23 = result m c := by
  refine (HostSide.tail_result m c).trans ?_
  rw [ArrayValue.final m c, found_eq m c]
  exact Cert.Response.byColumn_relaid _ _ _ _ _ _ _ _ _ _ _

/-- Every weakly fair execution of the kernel program terminates with the result at `result` and the arguments
    unchanged. -/
theorem run : θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v23 (Pipeline.mem_restRefs_of main_v23 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.lean ====
/-
  The kernel and its reference compute one function.

  Both programs take the softmax of the weights along the feature axis with the same operations, project every
  sample's feature row onto every softmax row, set projections smaller than 1e-5 in absolute value to zero, subtract
  the unit's threshold and the lower end of its band, divide by the band's width plus 1e-29 and clip to [0, 1].  The
  kernel forms the projections as a matrix product, 2000 samples at a time, against the softmax rows laid out as the
  1024 columns of a 32 x 1024 matrix, with thresholds and band ends as rows of 1024; the reference contracts the
  feature axis of the sample array with that of the 64 x 16 x 32 softmax array.  On the extended reals a matrix
  product into a zero accumulator and the host's contraction are the same sum over the 32 features, and every later
  step is applied entry by entry to equal arguments, so the results agree entry by entry once unit (g, u) is matched
  with column 16·g + u.  No step needs the inputs to be finite.

  The three frames are the generated ones (the reference's is its generated run with the result dropped); the
  idealization rewrote no operation, so the kernel's idealized program is its own text read over the extended reals.
-/
import proofs.«118163_j44779329028744_1_alg».proof.Defs
import proofs.«118163_j44779329028744_1_alg».proof.Proof.Gen.Kernel
import proofs.«118163_j44779329028744_1_alg».proof.Proof.Gen.Kernel.Frame
import proofs.«118163_j44779329028744_1_alg».proof.Proof.Gen.KernelIdeal
import proofs.«118163_j44779329028744_1_alg».proof.Proof.Gen.KernelIdeal.Frame
import proofs.«118163_j44779329028744_1_alg».proof.Proof.Gen.ReferenceIdeal
import proofs.«118163_j44779329028744_1_alg».proof.Proof.Gen.ReferenceIdeal.Run
import proofs.«118163_j44779329028744_1_alg».proof.Proof.Gen.ReferenceIdeal.Read
import proofs.«118163_j44779329028744_1_alg».proof.Proof.Gen.Pre_finite_inputs
import proofs.«118163_j44779329028744_1_alg».proof.Proof.RefValue
import proofs.«118163_j44779329028744_1_alg».proof.Proof.KernelRun
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at the per-unit arrangement of the clipped quotients (Response.lean) of the
    launch arrays: the kernel's by KernelRun.lean, the reference's by its generated run read stage by stage
    (RefValue.lean), and the launch arrays agree. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq,
    (hagree c).1, (hagree c).2.1, (hagree c).2.2.1, (hagree c).2.2.2]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference_ideal, Claims.preserves, Claims.algebraic⟩

end Cert.Proof

end
